-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x2 : Shape := ⟨2, ![16384, 2]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : FVec F S16384x4096 .f32) (main_arg1 : FVec F S16384x2 .f32) (main_arg2 : IVec S16384x2 32) (main_arg3 : IVec S64 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x2 .f32 := Host.absf main_arg1
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  main_v8
-- ==== Kernel.lean ====
abbrev S16384x4096 : Shape := ⟨2, ![16384, 4096]⟩
abbrev S16384x2 : Shape := ⟨2, ![16384, 2]⟩
abbrev S64 : Shape := ⟨1, ![64]⟩
abbrev S32768 : Shape := ⟨1, ![32768]⟩
abbrev S_ : Shape := ⟨0, ![]⟩
abbrev S32768x1 : Shape := ⟨2, ![32768, 1]⟩
abbrev S16384 : Shape := ⟨1, ![16384]⟩
abbrev S16384x1 : Shape := ⟨2, ![16384, 1]⟩
abbrev S512x4096 : Shape := ⟨2, ![512, 4096]⟩
abbrev S512x1 : Shape := ⟨2, ![512, 1]⟩

abbrev nBuf : Space → Nat
  | .hbm => 22
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x2, .f32⟩
  | .hbm, ⟨2, _⟩ => ⟨S16384x2, .i32⟩
  | .hbm, ⟨3, _⟩ => ⟨S64, .i32⟩
  | .hbm, ⟨4, _⟩ => ⟨S32768, .i32⟩
  | .hbm, ⟨5, _⟩ => ⟨S_, .f32⟩
  | .hbm, ⟨6, _⟩ => ⟨S64, .f32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S_, .f32⟩
  | .hbm, ⟨16, _⟩ => ⟨S32768, .f32⟩
  | .hbm, ⟨17, _⟩ => ⟨S64, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x4096, .f32⟩
  | .local _ .vmem, ⟨5, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x2_S32768 : S16384x2.ShapeCasts S32768
  bcast_S_S64 : S_.BroadcastsInDim S64 (![] : Fin 0 → Fin S64.rank)
  bcast_S_S32768 : S_.BroadcastsInDim S32768 (![] : Fin 0 → Fin S32768.rank)
  bcast_S32768_S32768x1_0 : S32768.BroadcastsInDim S32768x1 (![0] : Fin 1 → Fin S32768x1.rank)
  reducesTo_S16384x2_S16384_d1 : S16384x2.ReducesTo [1] S16384
  h_S_ : 0 < S_.numel
  bcast_S16384_S16384x1_0 : S16384.BroadcastsInDim S16384x1 (![0] : Fin 1 → Fin S16384x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  scatter_S64_S32768x1_S32768_n_0_0_1_wf : ScatterDims.WF S64 S32768x1 S32768 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

def scatter_S64_S32768x1_S32768_n_0_0_1 : ScatterDims S64 S32768x1 S32768 where
  updateWindowDims := []
  insertedWindowDims := [0]
  scatterDimsToOperandDims := [0]
  indexVectorDim := 1
  wf := scatter_S64_S32768x1_S32768_n_0_0_1_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384x2 : Shape := ⟨2, ![16384, 2]⟩
abbrev S64 : Shape := ⟨1, ![64]⟩
abbrev S32768 : Shape := ⟨1, ![32768]⟩
abbrev S_ : Shape := ⟨0, ![]⟩
abbrev S32768x1 : Shape := ⟨2, ![32768, 1]⟩
abbrev S32768x4096 : Shape := ⟨2, ![32768, 4096]⟩

abbrev nBuf : Space → Nat
  | .hbm => 72
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2, .f32⟩
  | .hbm, ⟨2, _⟩ => ⟨S16384x2, .i32⟩
  | .hbm, ⟨3, _⟩ => ⟨S64, .i32⟩
  | .hbm, ⟨4, _⟩ => ⟨S32768, .i32⟩
  | .hbm, ⟨5, _⟩ => ⟨S_, .f32⟩
  | .hbm, ⟨6, _⟩ => ⟨S64, .f32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S_, .f32⟩
  | .hbm, ⟨16, _⟩ => ⟨S32768, .f32⟩
  | .hbm, ⟨17, _⟩ => ⟨S64, .f32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768, .f32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768, .f32⟩
  | .hbm, ⟨31, _⟩ => ⟨S_, .i32⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S32768, .i32⟩
  | .hbm, ⟨40, _⟩ => ⟨S32768, .i32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S_, .i32⟩
  | .hbm, ⟨50, _⟩ => ⟨S32768, .i32⟩
  | .hbm, ⟨51, _⟩ => ⟨S32768, .i1⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768, .i32⟩
  | .hbm, ⟨56, _⟩ => ⟨S32768x1, .i32⟩
  | .hbm, ⟨57, _⟩ => ⟨S32768x4096, .f32⟩
  | .hbm, ⟨58, _⟩ => ⟨S32768x1, .f32⟩
  | .hbm, ⟨59, _⟩ => ⟨S32768x4096, .f32⟩
  | .hbm, ⟨60, _⟩ => ⟨S32768x4096, .f32⟩
  | .hbm, ⟨61, _⟩ => ⟨S_, .f32⟩
  | .hbm, ⟨62, _⟩ => ⟨S16384x4096, .f32⟩
  | .hbm, ⟨63, _⟩ => ⟨S_, .i32⟩
  | .hbm, ⟨64, _⟩ => ⟨S32768, .i32⟩
  | .hbm, ⟨65, _⟩ => ⟨S32768, .i1⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .i32⟩
  | .hbm, ⟨70, _⟩ => ⟨S32768x1, .i32⟩
  | .hbm, ⟨71, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1_0 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v19 : Ref sig .tc := ⟨.hbm, 48, rfl⟩
abbrev main_c_5 : Ref sig .tc := ⟨.hbm, 49, rfl⟩
abbrev main_v20 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩

abbrev nD : Nat := 1
abbrev τ : Topo := Topo.v7x

variable {F : FTy → Type} [FloatOps F]

class Facts₀ : Prop where
  shapeCasts_S16384x2_S32768 : S16384x2.ShapeCasts S32768
  bcast_S_S64 : S_.BroadcastsInDim S64 (![] : Fin 0 → Fin S64.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x4096_0_1 : S32768x1.BroadcastsInDim S32768x4096 (![0, 1] : Fin 2 → Fin S32768x4096.rank)
  bcast_S_S16384x4096 : S_.BroadcastsInDim S16384x4096 (![] : Fin 0 → Fin S16384x4096.rank)
  scatter_S64_S32768x1_S32768_n_0_0_1_wf : ScatterDims.WF S64 S32768x1 S32768 [] [0] [0] 1
  gather_S32768_S32768x1_S32768_n_0_n_n_0_1_1_wf : GatherDims.WF S32768 S32768x1 S32768 [] [0] [] [0] [] 1 ![1]
  gather_S16384x4096_S32768x1_S32768x4096_1_0_n_n_0_1_14096_wf : GatherDims.WF S16384x4096 S32768x1 S32768x4096 [1] [0] [] [0] [] 1 ![1, 4096]
  scatter_S16384x4096_S32768x1_S32768x4096_1_0_0_1_wf : ScatterDims.WF S16384x4096 S32768x1 S32768x4096 [1] [0] [0] 1

variable [Facts₀]

def scatter_S64_S32768x1_S32768_n_0_0_1 : ScatterDims S64 S32768x1 S32768 where
  updateWindowDims := []
  insertedWindowDims := [0]
  scatterDimsToOperandDims := [0]
  indexVectorDim := 1
  wf := scatter_S64_S32768x1_S32768_n_0_0_1_wf
def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S16384x4096_S32768x1_S32768x4096_1_0_n_n_0_1_14096 : GatherDims S16384x4096 S32768x1 S32768x4096 where
  offsetDims := [1]
  collapsedSliceDims := [0]
  operandBatchingDims := []
  startIndicesBatchingDims := []
  startIndexMap := [0]
  indexVectorDim := 1
  sliceSizes := ![1, 4096]
  wf := gather_S16384x4096_S32768x1_S32768x4096_1_0_n_n_0_1_14096_wf
def scatter_S16384x4096_S32768x1_S32768x4096_1_0_0_1 : ScatterDims S16384x4096 S32768x1 S32768x4096 where
  updateWindowDims := [1]
  insertedWindowDims := [0]
  scatterDimsToOperandDims := [0]
  indexVectorDim := 1
  wf := scatter_S16384x4096_S32768x1_S32768x4096_1_0_0_1_wf

class Facts : Prop extends Facts₀ where

variable [Facts]
-- ==== Proof.KernelValue.lean ====
/-
  The kernel's results as functions of its argument arrays: the output array is, row by row, x[t, ·]
  times the row's scale, the scale being the host's sum of the row's two scores (from zero); the
  histogram is the host's accumulation of ones at the (wrapped) expert ids.
-/
import proofs.«130824_j22874995818747_1_alg».proof.Proof.Gen.KernelIdeal.Value
import Idealize.ShloMosaic.Lib.Pipeline.Value
import Idealize.ShloMosaic.Lib.StableHlo.Run
import Idealize.ShloMosaic.Lib.StableHlo.Predicate
import Idealize.ShloMosaic.PureOps.Ideal
import Idealize.ShloMosaic.PureOps.Ideal.Laws

noncomputable section

namespace Cert.KernelIdeal.HandValue

open Cert.KernelIdeal Cert.KernelIdeal.Gen Idealize.ShloMosaic Idealize.ShloMosaic.TcCoe Idealize.SL.Sem
open Idealize.ShloMosaic.StableHlo.Predicate

variable {F : FTy → Type} [FloatOps F]

/-- The per-token scale as a [16384 × 1] column: the sum of the token's scores, from zero. -/
def scale (TS : FVec F S16384x2 .f32) : FVec F S16384x1 .f32 :=
  broadcastInDim S16384x1 ![0] bcast_S16384_S16384x1_0
    (Host.reduceAdd TS (constant S_ .f32 0x00000000#32) reducesTo_S16384x2_S16384_d1 h_S_)

/-- The output array: each element of `x` times its row's scale. -/
def out (X : FVec F S16384x4096 .f32) (TS : FVec F S16384x2 .f32) : FVec F S16384x4096 .f32 :=
  fun i => FloatOps.mulf (X i) (scale TS (ixP (i 0)))

/-- The histogram of the expert ids: ones accumulated onto a zero table at the (wrapped) ids. -/
def counts (E : IVec S16384x2 32) : FVec F S64 .f32 :=
  Host.scatterAdd scatter_S64_S32768x1_S32768_n_0_0_1
    (broadcastInDim S64 ![] bcast_S_S64 (constant S_ .f32 0x00000000#32))
    (broadcastInDim S32768x1 ![0] bcast_S32768_S32768x1_0
      (select (cmpi .slt (shapeCast S32768 E shapeCasts_S16384x2_S32768) (broadcastInDim S32768 ![] bcast_S_S32768 (constantI S_ 32 0#32)))
        (addi (shapeCast S32768 E shapeCasts_S16384x2_S32768) (broadcastInDim S32768 ![] bcast_S_S32768 (constantI S_ 32 64#32)))
        (shapeCast S32768 E shapeCasts_S16384x2_S32768)))
    (broadcastInDim S32768 ![] bcast_S_S32768 (constant S_ .f32 0x3F800000#32))

/-- The column the kernel scales by is `scale` of the score array. -/
private theorem V_v11 (m : (ℓ : Loc nD τ sig) → Buf (Elt F) ℓ) (c : Dev nD) : (V m c main_v11 : FVec F S16384x1 .f32) = scale (V m c main_arg1 : FVec F S16384x2 .f32) := by
  dsimp only [Gen.V, Gen.hostOps0]
  after_results
  rfl

/-- The histogram buffer is `counts` of the expert-id array. -/
private theorem V_v9 (m : (ℓ : Loc nD τ sig) → Buf (Elt F) ℓ) (c : Dev nD) : (V m c main_v9 : FVec F S64 .f32) = counts (V m c main_arg2 : IVec S16384x2 32) := by
  dsimp only [Gen.V, Gen.hostOps0]
  after_results
  rfl

private theorem hz : (![0, 0] : Fin 2 → Nat) = fun _ => 0 := funext fun a => by fin_cases a <;> rfl

/-- The three windows' block indices at point `t`: row block `t`, column block 0. -/
private theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `out` of the arrays as the region finds them: the x-block's row `y0` is
    array row `512 t + y0`, and the scale block's row `y0`, column 0, is the scale column's row `512 t + y0`. -/
private theorem flushed_eq (m : (ℓ : Loc nD τ sig) → Buf (Elt F) ℓ) (c : Dev nD) (t : Fin cfg0.N) :
    (dats m 0 c).flushed 2 t = ((cfg0.win 2).blk t).view.read (Elt F) (out (V m c main_arg0) (V m c main_arg1)) := by
  rw [Value.flushed2]
  unfold out0_2
  simp only [View.ld_unit_zero (S := S512x4096) hz, View.ld_unit_zero (S := S512x1) hz]
  obtain ⟨e0, e1, e2, e3, e4, e5⟩ := idx_facts t
  funext j
  refine Eq.trans (b := Value.E2 (iblk m c 0 t) (iblk m c 1 t) j) ?_ ?_
  · exact Value.canon2_eq (iblk m c 0 t) (iblk m c 1 t) j
  show FloatOps.mulf (V m c main_arg0 (((cfg0.win 0).blk t).view.emb (Value.ix2_0 j))) (V m c main_v11 (((cfg0.win 1).blk t).view.emb (Value.ix2_1 j))) = FloatOps.mulf (V m c main_arg0 (((cfg0.win 2).blk t).view.emb j)) (scale (V m c main_arg1) (ixP ((((cfg0.win 2).blk t).view.emb j) 0)))
  have hj0 : (j 0).val < 512 := (j 0).isLt
  have hj1 : (j 1).val < 4096 := (j 1).isLt
  have h0 : ((cfg0.win 0).blk t).view.emb (Value.ix2_0 j) = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (Value.ix2_1 j) = ixP ((((cfg0.win 2).blk t).view.emb j) 0) := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 1 + 1 * 0 = 0; omega
  rw [h0, h1, V_v11 m c]
  rfl

/-- An index of the array is in point `t`'s block iff each coordinate is in the block's range on its axis. -/
private theorem mem_blk (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v12).slice (win0_2.rect t)).set ↔ _
  rw [View.set_slice_whole, Rect.mem_set_unit]
  exact Iff.rfl

/-- Every index of the array is in the block of the point its row's quotient by 512 names. -/
private theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ : ∃ t : Fin cfg0.N, t.val = (i 0).val / 512 :=
    ⟨⟨(i 0).val / 512, lt_of_lt_of_eq (by omega : (i 0).val / 512 < 32) N_0.symm⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The output array after the run is `out` of the argument arrays. -/
private theorem final (m : (ℓ : Loc nD τ sig) → Buf (Elt F) ℓ) (c : Dev nD) :
    (dats m 0 c).arrAt 2 cfg0.N = out (m ((c.tc : Thread nD τ).loc main_arg0)) (m ((c.tc : Thread nD τ).loc main_arg1)) :=
  ((dats m 0 c).arrAt_eq_of_cover 2 (out (V m c main_arg0) (V m c main_arg1)) (fun t _ => flushed_eq m c t) cover).trans
    (by rw [V_main_arg0, V_main_arg1])

/-- From any memory with zero counters: every weakly fair execution of the kernel's @main terminates, with the output
    array at `out` and the histogram at `counts` of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = out (m ((c.tc : Thread nD τ).loc main_arg0)) (m ((c.tc : Thread nD τ).loc main_arg1))
      ∧ r.2.mem ((c.tc : Thread nD τ).loc main_v9) = counts (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(Value.post2 m r h c).trans (final m c),
      ((h c).2 main_v9 (Pipeline.mem_restRefs_of main_v9 (by decide) (by decide))).trans
        ((V_v9 m c).trans (by rw [V_main_arg2])),
      Value.kept_main_arg0 m r h c,
      Value.kept_main_arg1 m r h c,
      Value.kept_main_arg2 m r h c,
      Value.kept_main_arg3 m r h c⟩)
    (run_main m ρ)

/-- The output at (t, q) over the extended reals: x[t, q] times (zero plus the token's two scores). -/
theorem out_apply (X : FVec Ideal S16384x4096 .f32) (TS : FVec Ideal S16384x2 .f32) (t : Fin 16384) (q : Fin 4096) :
    (out (F := Ideal) X TS (ij t q) : EReal)
      = (X (ij t q) : EReal) * (0 + ((TS (ij t (0 : Fin 2)) : EReal) + (TS (ij t (1 : Fin 2)) : EReal))) := by
  have hR : S16384x2.Reduces [1] S16384 := by decide
  have e0 : hR.lift (Shape.Idx.ofFin t) (0 : Fin 2) = ij t (0 : Fin 2) := by
    funext a; apply Fin.ext
    match a with | ⟨0, _⟩ => rfl | ⟨1, _⟩ => rfl
  have e1 : hR.lift (Shape.Idx.ofFin t) (1 : Fin 2) = ij t (1 : Fin 2) := by
    funext a; apply Fin.ext
    match a with | ⟨0, _⟩ => rfl | ⟨1, _⟩ => rfl
  -- the row's scale is zero plus the sum over the row's two columns
  have hs : scale (F := Ideal) TS (ixP t) = (0 : EReal) + ((TS (ij t (0 : Fin 2)) : EReal) + (TS (ij t (1 : Fin 2)) : EReal)) := by
    unfold scale
    rw [bcast_col1]
    unfold Host.reduceAdd constant
    rw [Ideal.hostReduceAdd_def, Ideal.hostReduceAdd_single _ hR]
    show Ideal.ofBits .f32 0x00000000#32 + ∑ k : Fin 2, TS (hR.lift (Shape.Idx.ofFin t) k) = _
    rw [Ideal.ofBits_zero_f32, Fin.sum_univ_two, e0, e1]
  show (X (ij t q) : EReal) * scale (F := Ideal) TS (ixP t) = _
  rw [hs]

end Cert.KernelIdeal.HandValue

end
-- ==== Proof.RefTerm.lean ====
/-
  What the reference computes, as pure functions of its argument arrays, stage by stage in the order
  of its operations: the expert ids flattened; their stable argsort `order`; the scores flattened and
  read in that order; the token of each slot, `order / 2` (jnp's floor division); the rows of `x`
  gathered per slot and scaled by the slot's score; and their accumulation back onto the tokens'
  rows of a zero array. Beside it the histogram of the expert ids.
-/
import proofs.«130824_j22874995818747_1_alg».proof.Proof.Gen.ReferenceIdeal

noncomputable section

namespace Cert.ReferenceIdeal.Term

open Cert.ReferenceIdeal Cert.ReferenceIdeal.Facts₀ Idealize.ShloMosaic

variable {F : FTy → Type} [FloatOps F]

/-- A 32-bit constant at every slot. -/
def splat (b : BitVec 32) : IVec S32768 32 := broadcastInDim S32768 ![] bcast_S_S32768 (constantI S_ 32 b)

/-- jnp's wrap of negative indices: `where(v < 0, v + n, v)`. -/
def wrap (n : BitVec 32) (v : IVec S32768 32) : IVec S32768 32 :=
  select (cmpi .slt v (splat 0#32)) (addi v (splat n)) v

/-- A per-slot table as a [32768 × 1] column. -/
def col {α : Type} (v : S32768.Idx → α) : S32768x1.Idx → α := broadcastInDim S32768x1 ![0] bcast_S32768_S32768x1_0 v

/-- The expert ids, flattened row-major: slot 2t + k is token t's k-th choice. -/
def flatE (E : IVec S16384x2 32) : IVec S32768 32 := shapeCast S32768 E shapeCasts_S16384x2_S32768

/-- The scores, flattened alike. -/
def flatTS (TS : FVec F S16384x2 .f32) : FVec F S32768 .f32 := shapeCast S32768 TS shapeCasts_S16384x2_S32768

/-- The stable argsort of the flattened expert ids: the identity table carried through the sort. -/
def order (E : IVec S16384x2 32) : IVec S32768 32 :=
  (Host.sort2 S32768 0 comparator_i32_i32_d0 (flatE E) (iotaInDim S32768 32 0)).2

/-- jnp's `a // 2` on 32-bit integers: the truncating quotient, less one where the signs differ and the remainder is not zero. -/
def floorDiv2 (a : IVec S32768 32) : IVec S32768 32 :=
  select
    (andi (cmpi .ne (signi a) (broadcastInDim S32768 ![] bcast_S_S32768 (signi (constantI S_ 32 2#32))))
          (cmpi .ne (Host.remsi a (broadcastInDim S32768 ![] bcast_S_S32768 (constantI S_ 32 2#32))) (splat 0#32)))
    (subi (Host.divsi a (broadcastInDim S32768 ![] bcast_S_S32768 (constantI S_ 32 2#32))) (splat 1#32))
    (Host.divsi a (broadcastInDim S32768 ![] bcast_S_S32768 (constantI S_ 32 2#32)))

/-- The scores in sorted order: slot s reads the flattened scores at `order[s]`. -/
def tsSorted (TS : FVec F S16384x2 .f32) (E : IVec S16384x2 32) : FVec F S32768 .f32 :=
  Host.gather gather_S32768_S32768x1_S32768_n_0_n_n_0_1_1 (flatTS TS) (col (wrap 32768#32 (order E)))

/-- The token each slot came from. -/
def tokIdx (E : IVec S16384x2 32) : IVec S32768 32 := floorDiv2 (order E)

/-- The rows of `x` per slot. -/
def rows (X : FVec F S16384x4096 .f32) (E : IVec S16384x2 32) : FVec F S32768x4096 .f32 :=
  Host.gather gather_S16384x4096_S32768x1_S32768x4096_1_0_n_n_0_1_14096 X (col (wrap 16384#32 (tokIdx E)))

/-- The routed rows: each slot's row of `x` times the slot's score. -/
def upd (X : FVec F S16384x4096 .f32) (TS : FVec F S16384x2 .f32) (E : IVec S16384x2 32) : FVec F S32768x4096 .f32 :=
  mulf (rows X E) (broadcastInDim S32768x4096 ![0, 1] bcast_S32768x1_S32768x4096_0_1 (col (tsSorted TS E)))

/-- The combined output: the routed rows accumulated onto their tokens' rows of a zero array. -/
def out (X : FVec F S16384x4096 .f32) (TS : FVec F S16384x2 .f32) (E : IVec S16384x2 32) : FVec F S16384x4096 .f32 :=
  Host.scatterAdd scatter_S16384x4096_S32768x1_S32768x4096_1_0_0_1
    (broadcastInDim S16384x4096 ![] bcast_S_S16384x4096 (constant S_ .f32 0x00000000#32))
    (col (wrap 16384#32 (tokIdx E))) (upd X TS E)

/-- The histogram of the expert ids: ones accumulated onto a zero table at the (wrapped) ids. -/
def counts (E : IVec S16384x2 32) : FVec F S64 .f32 :=
  Host.scatterAdd scatter_S64_S32768x1_S32768_n_0_0_1
    (broadcastInDim S64 ![] bcast_S_S64 (constant S_ .f32 0x00000000#32))
    (col (wrap 64#32 (flatE E)))
    (broadcastInDim S32768 ![] bcast_S_S32768 (constant S_ .f32 0x3F800000#32))

end Cert.ReferenceIdeal.Term

end
-- ==== Proof.RefRun.lean ====
/-
  The reference's run: its @main is a straight line of host operations (the three outlined functions
  opened at their calls), so every weakly fair execution terminates without a fault, with the two
  results at the stage functions' values of the argument arrays and the arguments unchanged.
-/
import proofs.«130824_j22874995818747_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 68 operations in order, the outlined functions' operations listed at their calls over the
    calls' records: the histogram's fourteen, the argsort's three, the eleven up to the scores' gather and the
    divisor, the floor division's seventeen (its select the last), and the twenty-three of the rows' gather, the
    scaling and the accumulation. -/
abbrev ops : List (HloOp τ sig (Elt F)) :=
  [ StableHlo.reshape main_arg2 main_v0 rfl shapeCasts_S16384x2_S32768,
    StableHlo.nullary main_cst (constant S_ .f32 0x00000000#32),
    StableHlo.unary main_cst main_v1 (broadcastInDim S64 ![] bcast_S_S64 : (⟨S_, .f32⟩ : BufTy).Contents (Elt F) → (⟨S64, .f32⟩ : BufTy).Contents (Elt F)),
    StableHlo.nullary main_c (constantI S_ 32 0#32),
    StableHlo.unary main_c main_v2 (broadcastInDim S32768 ![] bcast_S_S32768 : (⟨S_, .i32⟩ : BufTy).Contents (Elt F) → (⟨S32768, .i32⟩ : BufTy).Contents (Elt F)),
    StableHlo.binary main_v0 main_v2 main_v3 (cmpi .slt : (⟨S32768, .i32⟩ : BufTy).Contents (Elt F) → (⟨S32768, .i32⟩ : BufTy).Contents (Elt F) → (⟨S32768, .i1⟩ : BufTy).Contents (Elt F)),
    StableHlo.nullary main_c_0 (constantI S_ 32 64#32),
    StableHlo.unary main_c_0 main_v4 (broadcastInDim S32768 ![] bcast_S_S32768 : (⟨S_, .i32⟩ : BufTy).Contents (Elt F) → (⟨S32768, .i32⟩ : BufTy).Contents (Elt F)),
    StableHlo.binary main_v0 main_v4 main_v5 (addi : (⟨S32768, .i32⟩ : BufTy).Contents (Elt F) → (⟨S32768, .i32⟩ : BufTy).Contents (Elt F) → (⟨S32768, .i32⟩ : BufTy).Contents (Elt F)),
    StableHlo.ternary main_v3 main_v5 main_v0 main_v6 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v6 main_v7 (broadcastInDim S32768x1 ![0] bcast_S32768_S32768x1_0 : (⟨S32768, .i32⟩ : BufTy).Contents (Elt F) → (⟨S32768x1, .i32⟩ : BufTy).Contents (Elt F)),
    StableHlo.nullary main_cst_1 (constant S_ .f32 0x3F800000#32),
    StableHlo.unary main_cst_1 main_v8 (broadcastInDim S32768 ![] bcast_S_S32768 : (⟨S_, .f32⟩ : BufTy).Contents (Elt F) → (⟨S32768, .f32⟩ : BufTy).Contents (Elt F)),
    StableHlo.ternary main_v1 main_v7 main_v8 main_v9 ((fun x i u => Host.scatterAdd scatter_S64_S32768x1_S32768_n_0_0_1 x i u) : (⟨S64, .f32⟩ : BufTy).Contents (Elt F) → (⟨S32768x1, .i32⟩ : BufTy).Contents (Elt F) → (⟨S32768, .f32⟩ : BufTy).Contents (Elt F) → (⟨S64, .f32⟩ : BufTy).Contents (Elt F)),
    StableHlo.TRef.nullary main_call0.v0 (iotaInDim S32768 32 0),
    StableHlo.TRef.binary (.of main_v0) main_call0.v0 main_call0.v1_0 (fun x y => (Host.sort2 S32768 0 comparator_i32_i32_d0 x y).1),
    StableHlo.TRef.binary (.of main_v0) main_call0.v0 main_call0.v1_1 (fun x y => (Host.sort2 S32768 0 comparator_i32_i32_d0 x y).2),
    StableHlo.reshape main_arg1 main_v11 rfl shapeCasts_S16384x2_S32768,
    StableHlo.nullary main_c_2 (constantI S_ 32 0#32),
    StableHlo.unary main_c_2 main_v12 (broadcastInDim S32768 ![] bcast_S_S32768 : (⟨S_, .i32⟩ : BufTy).Contents (Elt F) → (⟨S32768, .i32⟩ : BufTy).Contents (Elt F)),
    StableHlo.binary main_v10 main_v12 main_v13 (cmpi .slt : (⟨S32768, .i32⟩ : BufTy).Contents (Elt F) → (⟨S32768, .i32⟩ : BufTy).Contents (Elt F) → (⟨S32768, .i1⟩ : BufTy).Contents (Elt F)),
    StableHlo.nullary main_c_3 (constantI S_ 32 32768#32),
    StableHlo.unary main_c_3 main_v14 (broadcastInDim S32768 ![] bcast_S_S32768 : (⟨S_, .i32⟩ : BufTy).Contents (Elt F) → (⟨S32768, .i32⟩ : BufTy).Contents (Elt F)),
    StableHlo.binary main_v10 main_v14 main_v15 (addi : (⟨S32768, .i32⟩ : BufTy).Contents (Elt F) → (⟨S32768, .i32⟩ : BufTy).Contents (Elt F) → (⟨S32768, .i32⟩ : BufTy).Contents (Elt F)),
    StableHlo.ternary main_v13 main_v15 main_v10 main_v16 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v16 main_v17 (broadcastInDim S32768x1 ![0] bcast_S32768_S32768x1_0 : (⟨S32768, .i32⟩ : BufTy).Contents (Elt F) → (⟨S32768x1, .i32⟩ : BufTy).Contents (Elt F)),
    StableHlo.binary main_v11 main_v17 main_v18 ((fun x i => Host.gather gather_S32768_S32768x1_S32768_n_0_n_n_0_1_1 x i) : (⟨S32768, .f32⟩ : BufTy).Contents (Elt F) → (⟨S32768x1, .i32⟩ : BufTy).Contents (Elt F) → (⟨S32768, .f32⟩ : BufTy).Contents (Elt F)),
    StableHlo.nullary main_c_4 (constantI S_ 32 2#32),
    StableHlo.TRef.unary (.of main_c_4) main_call1.v0 id,
    StableHlo.TRef.unary main_call1.v0 main_call1.v1 (broadcastInDim S32768 ![] bcast_S_S32768),
    StableHlo.TRef.binary (.of main_v10) main_call1.v1 main_call1.v2 Host.divsi,
    StableHlo.TRef.unary (.of main_v10) main_call1.v3 signi,
    StableHlo.TRef.unary main_call1.v0 main_call1.v4 signi,
    StableHlo.TRef.unary main_call1.v4 main_call1.v5 (broadcastInDim S32768 ![] bcast_S_S32768),
    StableHlo.TRef.binary main_call1.v3 main_call1.v5 main_call1.v6 (cmpi .ne),
    StableHlo.TRef.unary main_call1.v0 main_call1.v7 (broadcastInDim S32768 ![] bcast_S_S32768),
    StableHlo.TRef.binary (.of main_v10) main_call1.v7 main_call1.v8 Host.remsi,
    StableHlo.TRef.nullary main_call1.c (constantI S_ 32 0#32),
    StableHlo.TRef.unary main_call1.c main_call1.v9 (broadcastInDim S32768 ![] bcast_S_S32768),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S32768 ![] bcast_S_S32768),
    StableHlo.TRef.binary main_call1.v2 main_call1.v12 main_call1.v13 subi,
    StableHlo.TRef.ternary main_call1.v11 main_call1.v13 main_call1.v2 main_call1.call0.v0 select,
    StableHlo.nullary main_c_5 (constantI S_ 32 0#32),
    StableHlo.unary main_c_5 main_v20 (broadcastInDim S32768 ![] bcast_S_S32768 : (⟨S_, .i32⟩ : BufTy).Contents (Elt F) → (⟨S32768, .i32⟩ : BufTy).Contents (Elt F)),
    StableHlo.binary main_v19 main_v20 main_v21 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 16384#32),
    StableHlo.unary main_c_6 main_v22 (broadcastInDim S32768 ![] bcast_S_S32768 : (⟨S_, .i32⟩ : BufTy).Contents (Elt F) → (⟨S32768, .i32⟩ : BufTy).Contents (Elt F)),
    StableHlo.binary main_v19 main_v22 main_v23 (addi : (⟨S32768, .i32⟩ : BufTy).Contents (Elt F) → (⟨S32768, .i32⟩ : BufTy).Contents (Elt F) → (⟨S32768, .i32⟩ : BufTy).Contents (Elt F)),
    StableHlo.ternary main_v21 main_v23 main_v19 main_v24 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v24 main_v25 (broadcastInDim S32768x1 ![0] bcast_S32768_S32768x1_0 : (⟨S32768, .i32⟩ : BufTy).Contents (Elt F) → (⟨S32768x1, .i32⟩ : BufTy).Contents (Elt F)),
    StableHlo.binary main_arg0 main_v25 main_v26 ((fun x i => Host.gather gather_S16384x4096_S32768x1_S32768x4096_1_0_n_n_0_1_14096 x i) : (⟨S16384x4096, .f32⟩ : BufTy).Contents (Elt F) → (⟨S32768x1, .i32⟩ : BufTy).Contents (Elt F) → (⟨S32768x4096, .f32⟩ : BufTy).Contents (Elt F)),
    StableHlo.unary main_v18 main_v27 (broadcastInDim S32768x1 ![0] bcast_S32768_S32768x1_0 : (⟨S32768, .f32⟩ : BufTy).Contents (Elt F) → (⟨S32768x1, .f32⟩ : BufTy).Contents (Elt F)),
    StableHlo.unary main_v27 main_v28 (broadcastInDim S32768x4096 ![0, 1] bcast_S32768x1_S32768x4096_0_1 : (⟨S32768x1, .f32⟩ : BufTy).Contents (Elt F) → (⟨S32768x4096, .f32⟩ : BufTy).Contents (Elt F)),
    StableHlo.binary main_v26 main_v28 main_v29 (mulf : (⟨S32768x4096, .f32⟩ : BufTy).Contents (Elt F) → (⟨S32768x4096, .f32⟩ : BufTy).Contents (Elt F) → (⟨S32768x4096, .f32⟩ : BufTy).Contents (Elt F)),
    StableHlo.nullary main_cst_7 (constant S_ .f32 0x00000000#32),
    StableHlo.unary main_cst_7 main_v30 (broadcastInDim S16384x4096 ![] bcast_S_S16384x4096 : (⟨S_, .f32⟩ : BufTy).Contents (Elt F) → (⟨S16384x4096, .f32⟩ : BufTy).Contents (Elt F)),
    StableHlo.nullary main_c_8 (constantI S_ 32 0#32),
    StableHlo.unary main_c_8 main_v31 (broadcastInDim S32768 ![] bcast_S_S32768 : (⟨S_, .i32⟩ : BufTy).Contents (Elt F) → (⟨S32768, .i32⟩ : BufTy).Contents (Elt F)),
    StableHlo.binary main_v19 main_v31 main_v32 (cmpi .slt : (⟨S32768, .i32⟩ : BufTy).Contents (Elt F) → (⟨S32768, .i32⟩ : BufTy).Contents (Elt F) → (⟨S32768, .i1⟩ : BufTy).Contents (Elt F)),
    StableHlo.nullary main_c_9 (constantI S_ 32 16384#32),
    StableHlo.unary main_c_9 main_v33 (broadcastInDim S32768 ![] bcast_S_S32768 : (⟨S_, .i32⟩ : BufTy).Contents (Elt F) → (⟨S32768, .i32⟩ : BufTy).Contents (Elt F)),
    StableHlo.binary main_v19 main_v33 main_v34 (addi : (⟨S32768, .i32⟩ : BufTy).Contents (Elt F) → (⟨S32768, .i32⟩ : BufTy).Contents (Elt F) → (⟨S32768, .i32⟩ : BufTy).Contents (Elt F)),
    StableHlo.ternary main_v32 main_v34 main_v19 main_v35 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v35 main_v36 (broadcastInDim S32768x1 ![0] bcast_S32768_S32768x1_0 : (⟨S32768, .i32⟩ : BufTy).Contents (Elt F) → (⟨S32768x1, .i32⟩ : BufTy).Contents (Elt F)),
    StableHlo.ternary main_v30 main_v36 main_v29 main_v37 ((fun x i u => Host.scatterAdd scatter_S16384x4096_S32768x1_S32768x4096_1_0_0_1 x i u) : (⟨S16384x4096, .f32⟩ : BufTy).Contents (Elt F) → (⟨S32768x1, .i32⟩ : BufTy).Contents (Elt F) → (⟨S32768x4096, .f32⟩ : BufTy).Contents (Elt F) → (⟨S16384x4096, .f32⟩ : BufTy).Contents (Elt F)) ]

set_option maxRecDepth 4096 in
/-- @main is that straight line: the functions' definitions unfolded at their calls and the records at their
    fields, both sides are one chain of host steps once sequencing is reassociated. -/
theorem main_eq (c : Dev nD) : main (F := F) c = seq ops := by
  simp only [main, fn_argsort.body, fn_where.body, fn_floor_divide.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨reshape_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., binary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.sort2 Host.gather Host.scatterAdd in
set_option maxRecDepth 100000 in
set_option maxHeartbeats 1600000 in
/-- The fold at the histogram's buffer is the stage function `Term.counts` of the expert ids: each operation's
    result read at its own buffer is its function of its operands' contents, at any other buffer what was there;
    the typed references' transports are the identity at these literal references. The sort, the gathers and the
    accumulations stay folded: the equation never looks inside them. -/
theorem counts_eq (V : Valuation τ sig (Elt F)) :
    after ops V (main_v9 : DevRef τ sig) = Term.counts (V (main_arg2 : DevRef τ sig)) := by
  after_results_simp
  rfl

attribute [local irreducible] Host.sort2 Host.gather Host.scatterAdd in
set_option maxRecDepth 100000 in
set_option maxHeartbeats 1600000 in
/-- The fold at the combined output's buffer is the stage function `Term.out` of the three argument arrays, alike;
    the index table of the accumulation is computed a second time by the program, to the same term. -/
theorem out_eq (V : Valuation τ sig (Elt F)) :
    after ops V (main_v37 : DevRef τ sig)
      = Term.out (V (main_arg0 : DevRef τ sig)) (V (main_arg1 : DevRef τ sig)) (V (main_arg2 : DevRef τ sig)) := by
  after_results_simp
  rfl

set_option maxRecDepth 8192 in
set_option maxHeartbeats 1600000 in
/-- No operation writes argument 0. -/
theorem arg0_eq (V : Valuation τ sig (Elt F)) :
    after ops V (main_arg0 : DevRef τ sig) = V (main_arg0 : DevRef τ sig) := by
  after_results_simp

set_option maxRecDepth 8192 in
set_option maxHeartbeats 1600000 in
/-- No operation writes argument 1. -/
theorem arg1_eq (V : Valuation τ sig (Elt F)) :
    after ops V (main_arg1 : DevRef τ sig) = V (main_arg1 : DevRef τ sig) := by
  after_results_simp

set_option maxRecDepth 8192 in
set_option maxHeartbeats 1600000 in
/-- No operation writes argument 2. -/
theorem arg2_eq (V : Valuation τ sig (Elt F)) :
    after ops V (main_arg2 : DevRef τ sig) = V (main_arg2 : DevRef τ sig) := by
  after_results_simp

set_option maxRecDepth 8192 in
set_option maxHeartbeats 1600000 in
/-- No operation writes argument 3. -/
theorem arg3_eq (V : Valuation τ sig (Elt F)) :
    after ops V (main_arg3 : DevRef τ sig) = V (main_arg3 : DevRef τ sig) := by
  after_results_simp

/-- From any memory with zero counters: every weakly fair execution of the reference's @main terminates, with the
    combined output at `Term.out` and the histogram at `Term.counts` of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = Term.out (m ((c.tc : Thread nD τ).loc main_arg0)) (m ((c.tc : Thread nD τ).loc main_arg1)) (m ((c.tc : Thread nD τ).loc main_arg2))
      ∧ r.2.mem ((c.tc : Thread nD τ).loc main_v9) = Term.counts (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v37).trans (out_eq _), (h c main_v9).trans (counts_eq _),
      (h c main_arg0).trans (arg0_eq _), (h c main_arg1).trans (arg1_eq _), (h c main_arg2).trans (arg2_eq _),
      (h c main_arg3).trans (arg3_eq _)⟩)
    (run_main m ρ)

end Cert.ReferenceIdeal.HandRun

end
-- ==== Proof.Words.lean ====
/-
  Small non-negative 32-bit words under the integer idioms the reference spells out: the wrap of a
  negative index (`where(i < 0, i + n, i)`) leaves a word below 2^31 alone, and jnp's floor division
  by two (truncating division corrected where the signs differ and the remainder is non-zero) of such
  a word is its value halved.
-/
import Idealize.ShloMosaic.Lib.StableHlo.Predicate

namespace Cert.Route.Words

open Idealize.ShloMosaic

/-- The sign of a 32-bit word as `stablehlo.sign` computes it at one element: 0, -1 or 1. -/
def sgn (v : BitVec 32) : BitVec 32 := if v = 0 then 0 else if v.msb then -1 else 1

/-- The wrap of negative indices leaves a small non-negative word alone. -/
theorem wrap_small (n v : BitVec 32) (hv : v.toNat < 2 ^ 31) :
    Scalar.select (IntOp.cmpi .slt v 0#32) (IntOp.addi v n) v = v := by
  -- a value that is not negative does not compare below zero, so the select keeps the word
  have h : ¬ IntOp.cmpi .slt v 0#32 = (1 : BitVec 1) := by
    intro hc
    have := (StableHlo.Predicate.slt_iff_toNat hv (by decide)).mp hc
    simp at this
  unfold Scalar.select
  exact if_neg h

/-- A one-bit conjunction whose first operand compares a word as different from itself is not set. -/
private theorem andi_ne_self (a : BitVec 32) (c : BitVec 1) :
    ¬ IntOp.andi (IntOp.cmpi .ne a a) c = (1 : BitVec 1) := by
  have h0 : IntOp.cmpi .ne a a = 0#1 := by simp [IntOp.cmpi]
  rw [h0]; unfold IntOp.andi; simp

/-- A one-bit conjunction whose second operand compares zero as different from zero is not set. -/
private theorem andi_zero_ne_zero (c : BitVec 1) :
    ¬ IntOp.andi c (IntOp.cmpi .ne (0#32) 0#32) = (1 : BitVec 1) := by
  have h0 : IntOp.cmpi .ne (0#32) 0#32 = 0#1 := by decide
  rw [h0]; unfold IntOp.andi; simp

/-- Floor division by two of a small non-negative word, spelt as jnp does (truncating quotient, minus one where the
    signs differ and the remainder is not zero), is the word of the halved value. -/
theorem floordiv2_small (v : BitVec 32) (hv : v.toNat < 2 ^ 31) :
    Scalar.select
        (IntOp.andi (IntOp.cmpi .ne (sgn v) (sgn 2#32)) (IntOp.cmpi .ne (IntOp.remsi .host v 2#32) 0#32))
        (IntOp.subi (IntOp.divsi .host v 2#32) 1#32) (IntOp.divsi .host v 2#32)
      = BitVec.ofNat 32 (v.toNat / 2) := by
  have hm : v.msb = false := BitVec.msb_eq_false_iff_two_mul_lt.mpr (by omega)
  -- the correction is never applied: at zero the remainder is zero, above zero the signs agree
  have hcond : ¬ IntOp.andi (IntOp.cmpi .ne (sgn v) (sgn 2#32))
      (IntOp.cmpi .ne (IntOp.remsi .host v 2#32) 0#32) = (1 : BitVec 1) := by
    by_cases h0 : v = 0#32
    · have hcorner : ¬ IntOp.SDivCorner (0#32) 2#32 := by
        intro hc; rcases hc with hc | ⟨_, hc⟩ <;> exact absurd hc (by decide)
      have hr : IntOp.remsi .host v 2#32 = 0#32 := by
        rw [h0]; simp only [IntOp.remsi, if_neg hcorner]; decide
      rw [hr]; exact andi_zero_ne_zero _
    · have hs : sgn v = sgn 2#32 := by
        have h2 : sgn 2#32 = 1 := by decide
        have h0' : ¬ v = 0 := h0
        rw [h2]; unfold sgn; rw [if_neg h0', hm]; simp
      rw [hs]; exact andi_ne_self _ _
  unfold Scalar.select
  rw [if_neg hcond]
  -- the truncating quotient of a small word by two is the halved value
  apply BitVec.eq_of_toNat_eq
  rw [StableHlo.Predicate.divsi_two .host v hv, BitVec.toNat_ofNat]
  omega

end Cert.Route.Words
-- ==== Proof.SortPerm.lean ====
/-
  An argsort is a permutation: sorting a table of keys together with the identity table 0, 1, …, n-1
  (whatever the comparator, whatever the keys) leaves in the carried table the words of a permutation
  of the positions.
-/
import Idealize.ShloMosaic.Lib.SortFacts
import Idealize.ShloMosaic.Lib.StableHlo.Predicate

namespace Cert.Route.SortPerm

open Idealize.ShloMosaic

/-- The table carried through a two-operand sort along the one axis of a rank-1 shape, when it is the identity table,
    holds at position `p` the word of `σ p` for ONE permutation `σ` of the positions. -/
theorem argsort_perm {n : Nat} {α : Type} (cmp : α × BitVec 32 → α × BitVec 32 → BitVec 1)
    (keys : (⟨1, ![n]⟩ : Shape).Idx → α) :
    ∃ σ : Equiv.Perm (Fin n), ∀ p : Fin n,
      (Host.sort2 ⟨1, ![n]⟩ 0 cmp keys (iotaInDim ⟨1, ![n]⟩ 32 0)).2 (Shape.Idx.ofFin p) = BitVec.ofNat 32 (σ p).val := by
  -- on a rank-1 shape every fiber is the whole table, so the sort reads through one self-map of the
  -- positions, which is a bijection whatever the comparator
  let before : Fin n → Fin n → Bool := fun k k' =>
    cmp (keys (Shape.Idx.ofFin k), iotaInDim ⟨1, ![n]⟩ 32 0 (Shape.Idx.ofFin k))
        (keys (Shape.Idx.ofFin k'), iotaInDim ⟨1, ![n]⟩ 32 0 (Shape.Idx.ofFin k')) == 1#1
  refine ⟨Equiv.ofBijective (sortedFrom before) ⟨sortedFrom_injective before, sortedFrom_surjective before⟩, ?_⟩
  intro p
  unfold Host.sort2
  simp [iotaInDim, before]

end Cert.Route.SortPerm
-- ==== Proof.IndexOps.lean ====
/-
  Two indexed host operations read at one element, at any extents: the gather of whole rows of an
  [N × D] table at an [n × 1] column of row numbers (`x[rows]`), and where the scatter of [n × D]
  update rows into an [N × D] operand at such a column (`.at[rows].add`) lands each update element.
-/
import Idealize.ShloMosaic.Lib.StableHlo.Predicate

namespace Cert.Route.IndexOps

open Idealize.ShloMosaic Idealize.ShloMosaic.StableHlo.Predicate

/-- An entry of a one-element list is that element. -/
private theorem getElem_of_eq_singleton {β : Type} (l : List β) (b : β) (hl : l = [b]) (i : Nat) (h : i < l.length) :
    l[i] = b := by
  subst hl
  have hi : i = 0 := by simpa using h
  subst hi; rfl

/-- THE ROW GATHER. Result element (p, q) reads the table at row `idx[p, 0]` — read signed and clamped into the table —
    and column `q`. The hypotheses are the printed dimension numbers, each by `rfl`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ij p q) = x (ij ⟨min (idx (ixP p)).toInt.toNat (N - 1), by omega⟩ q) := by
  have hb : ∀ a : Fin 2, a ∉ d.operandBatchingDims := by intro a; rw [hob]; exact List.not_mem_nil
  have hsk : d.sKept = [1] := by
    show Shape.kept _ (d.collapsedSliceDims ++ d.operandBatchingDims) = [1]
    rw [hcoll, hob]
    rfl
  -- axis 0: collapsed and start-indexed
  have h0 : (d.operandIdx (ij p q) idx (0 : Fin 2)).val = min (idx (ixP p)).toInt.toNat (N - 1) := by
    have hk : (0 : Fin 2) ∉ d.sKept := by
      rw [hsk]; show (0 : Fin 2) ∉ ([1] : List (Fin 2)); decide
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      rw [getElem_of_eq_singleton d.batchDims 0 hbd]
      rfl
    | ⟨1, _⟩ =>
      unfold GatherDims.siIdx
      rw [dif_pos (by rw [hivd])]
      apply Fin.ext
      show List.idxOf (0 : Fin 2) d.startIndexMap = 0
      rw [hsim]; simp
  -- axis 1: a kept offset axis, not start-indexed
  have h1 : (d.operandIdx (ij p q) idx (1 : Fin 2)).val = q.val := by
    have hk : (1 : Fin 2) ∈ d.sKept := by rw [hsk]; exact List.mem_singleton.mpr rfl
    have hm : (1 : Fin 2) ∉ d.startIndexMap := by
      rw [hsim]; show (1 : Fin 2) ∉ ([0] : List (Fin 2)); decide
    simp only [GatherDims.operandIdx, GatherDims.batchCoord_eq_zero _ _ _ (hb _), Nat.add_zero, GatherDims.start, dif_neg hm,
      Nat.zero_add, GatherDims.offCoord, dif_pos hk]
    rw [getElem_of_eq_singleton d.offsetDims 1 hoff]
    rfl
  unfold Host.gather
  congr 1
  funext a
  apply Fin.ext
  match a with
  | ⟨0, _⟩ => exact h0
  | ⟨1, _⟩ => exact h1

section Scatter

variable {N D n w : Nat} (d : ScatterDims ⟨2, ![N, D]⟩ ⟨2, ![n, 1]⟩ ⟨2, ![n, D]⟩)

/-- On operand axis 0 the window starts at the signed start index of the update's row. -/
private theorem scatter_start_zero (huw : d.updateWindowDims = [1]) (hsd : d.scatterDimsToOperandDims = [0])
    (hivd : d.indexVectorDim = 1) (idx : IVec ⟨2, ![n, 1]⟩ w) (p : Fin n) (q : Fin D) :
    d.start (ij p q) idx (0 : Fin 2) = (idx (ixP p)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    rw [getElem_of_eq_singleton d.uScatter 0 hus]
    rfl
  | ⟨1, _⟩ =>
    unfold ScatterDims.siIdx
    rw [dif_pos (by rw [hivd])]
    apply Fin.ext
    show List.idxOf (0 : Fin 2) d.scatterDimsToOperandDims = 0
    rw [hsd]; simp

/-- Operand axis 1 is not start-indexed. -/
private theorem scatter_start_one (hsd : d.scatterDimsToOperandDims = [0])
    (idx : IVec ⟨2, ![n, 1]⟩ w) (j : (⟨2, ![n, D]⟩ : Shape).Idx) :
    d.start j idx (1 : Fin 2) = 0 := by
  have hm : (1 : Fin 2) ∉ d.scatterDimsToOperandDims := by
    rw [hsd]; show (1 : Fin 2) ∉ ([0] : List (Fin 2)); decide
  unfold ScatterDims.start
  rw [dif_neg hm]

/-- Operand axis 0 is an inserted window axis. -/
private theorem scatter_window_zero (hiw : d.insertedWindowDims = [0]) (j : (⟨2, ![n, D]⟩ : Shape).Idx) :
    d.window j (0 : Fin 2) = 0 := by
  have hsk : d.sKept = [1] := by
    show Shape.kept _ d.insertedWindowDims = [1]
    rw [hiw]; rfl
  have hk : (0 : Fin 2) ∉ d.sKept := by
    rw [hsk]; show (0 : Fin 2) ∉ ([1] : List (Fin 2)); decide
  unfold ScatterDims.window
  rw [dif_neg hk]

/-- Operand axis 1 carries the update's column. -/
private theorem scatter_window_one (huw : d.updateWindowDims = [1]) (hiw : d.insertedWindowDims = [0])
    (p : Fin n) (q : Fin D) :
    d.window (ij p q) (1 : Fin 2) = q.val := by
  have hsk : d.sKept = [1] := by
    show Shape.kept _ d.insertedWindowDims = [1]
    rw [hiw]; rfl
  have hk : (1 : Fin 2) ∈ d.sKept := by rw [hsk]; exact List.mem_singleton.mpr rfl
  unfold ScatterDims.window
  rw [dif_pos hk, getElem_of_eq_singleton d.updateWindowDims 1 huw]
  rfl

end Scatter

/-- WHERE A ROW SCATTER LANDS. Update element (p, q) lands on operand element (t, q') exactly when the signed start index
    `idx[p, 0]` is `t` and the columns agree (an index outside [0, N) lands nowhere). -/
theorem scatter_rows_lands {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (idx : IVec ⟨2, ![n, 1]⟩ w) (p : Fin n) (q : Fin D) (t : Fin N) (q' : Fin D) :
    d.resultIdx? (ij p q) idx = some (ij t q') ↔ (idx (ixP p)).toInt = (t.val : Int) ∧ q = q' := by
  have s0 := scatter_start_zero d huw hsd hivd idx p q
  have s1 := scatter_start_one d hsd idx (ij p q)
  have w0 := scatter_window_zero d hiw (ij p q)
  have w1 := scatter_window_one d huw hiw p q
  have ht := t.isLt
  have hq := q.isLt
  have hq' := q'.isLt
  unfold ScatterDims.resultIdx?
  split
  · next h =>
    have h0 := h (0 : Fin 2)
    rw [s0, w0] at h0
    rw [Option.some.injEq]
    constructor
    · intro he
      have e0 : (d.start (ij p q) idx (0 : Fin 2) + (d.window (ij p q) (0 : Fin 2) : Int)).toNat = t.val :=
        congrArg (fun f => (f (0 : Fin 2)).val) he
      have e1 : (d.start (ij p q) idx (1 : Fin 2) + (d.window (ij p q) (1 : Fin 2) : Int)).toNat = q'.val :=
        congrArg (fun f => (f (1 : Fin 2)).val) he
      rw [s0, w0] at e0
      rw [s1, w1] at e1
      exact ⟨by omega, Fin.ext (by omega)⟩
    · rintro ⟨hs, rfl⟩
      funext a
      apply Fin.ext
      match a with
      | ⟨0, _⟩ =>
        show (d.start (ij p q) idx (0 : Fin 2) + (d.window (ij p q) (0 : Fin 2) : Int)).toNat = t.val
        rw [s0, w0]; omega
      | ⟨1, _⟩ =>
        show (d.start (ij p q) idx (1 : Fin 2) + (d.window (ij p q) (1 : Fin 2) : Int)).toNat = q.val
        rw [s1, w1]; omega
  · next h =>
    constructor
    · intro he; cases he
    · rintro ⟨hs, rfl⟩
      exfalso
      apply h
      intro a
      match a with
      | ⟨0, _⟩ =>
        show 0 ≤ d.start (ij p q) idx (0 : Fin 2) + (d.window (ij p q) (0 : Fin 2) : Int) ∧
          d.start (ij p q) idx (0 : Fin 2) + (d.window (ij p q) (0 : Fin 2) : Int) < (N : Int)
        rw [s0, w0]; omega
      | ⟨1, _⟩ =>
        show 0 ≤ d.start (ij p q) idx (1 : Fin 2) + (d.window (ij p q) (1 : Fin 2) : Int) ∧
          d.start (ij p q) idx (1 : Fin 2) + (d.window (ij p q) (1 : Fin 2) : Int) < (D : Int)
        rw [s1, w1]; omega

end Cert.Route.IndexOps
-- ==== Proof.PairSum.lean ====
/-
  The arithmetic heart. Slots 2t and 2t+1 of a flat table of 2N entries are token t's two entries; a
  permutation σ of the slots only reorders which slot meets which entry, so the sum over the slots s
  with σ(s) / 2 = t of a function of σ(s) is the function at 2t plus the function at 2t+1. And on
  finite reals a product distributes over that sum.
-/
import Mathlib.Data.EReal.Basic
import Mathlib.Algebra.BigOperators.Fin
import Mathlib.Data.Fintype.Perm
import Mathlib.Logic.Equiv.Fin.Basic

namespace Cert.Route.PairSum

/-- Summing over the slots a permutation sends into token `t`'s pair is summing over the pair. -/
theorem sum_pair {M : Type} [AddCommMonoid M] (σ : Equiv.Perm (Fin 32768)) (t : Fin 16384) (f : Fin 32768 → M) :
    ∑ s ∈ Finset.univ.filter (fun s : Fin 32768 => (σ s).val / 2 = t.val), f (σ s)
      = f ⟨2 * t.val, by omega⟩ + f ⟨2 * t.val + 1, by omega⟩ := by
  have h1 : ∑ s ∈ Finset.univ.filter (fun s : Fin 32768 => (σ s).val / 2 = t.val), f (σ s)
      = ∑ k ∈ Finset.univ.filter (fun k : Fin 32768 => k.val / 2 = t.val), f k := by
    apply Finset.sum_equiv σ
    · intro s
      simp only [Finset.mem_filter, Finset.mem_univ, true_and]
    · intro s _
      rfl
  have h2 : Finset.univ.filter (fun k : Fin 32768 => k.val / 2 = t.val)
      = {(⟨2 * t.val, by omega⟩ : Fin 32768), (⟨2 * t.val + 1, by omega⟩ : Fin 32768)} := by
    ext k
    simp only [Finset.mem_filter, Finset.mem_univ, true_and, Finset.mem_insert,
      Finset.mem_singleton, Fin.ext_iff]
    omega
  have h3 : (⟨2 * t.val, by omega⟩ : Fin 32768) ≠ (⟨2 * t.val + 1, by omega⟩ : Fin 32768) := by
    intro h
    have := congrArg Fin.val h
    simp only at this
    omega
  rw [h1, h2, Finset.sum_pair h3]

/-- On finite reals, scaling by the sum of two scores is the sum of the two scaled values (the zero initial values of the
    row sum and of the accumulation change nothing). -/
theorem scale_sum (x a b : ℝ) :
    (x : EReal) * (0 + ((a : EReal) + (b : EReal))) = 0 + ((x : EReal) * (a : EReal) + (x : EReal) * (b : EReal)) := by
  rw [zero_add, zero_add, ← EReal.coe_add, ← EReal.coe_mul, ← EReal.coe_mul, ← EReal.coe_mul,
    ← EReal.coe_add, mul_add]

end Cert.Route.PairSum
-- ==== Proof.RefValue.lean ====
/-
  The reference's combined output at one element, over the extended reals: token t's row is x[t, ·]
  times its first score plus x[t, ·] times its second. The sort only decides which slot carries
  which (token, choice) pair; the accumulation onto the tokens' rows gathers each token's two slots
  again, whatever the order.
-/
import proofs.«130824_j22874995818747_1_alg».proof.Proof.RefTerm
import proofs.«130824_j22874995818747_1_alg».proof.Proof.Words
import proofs.«130824_j22874995818747_1_alg».proof.Proof.SortPerm
import proofs.«130824_j22874995818747_1_alg».proof.Proof.IndexOps
import proofs.«130824_j22874995818747_1_alg».proof.Proof.PairSum
import Idealize.ShloMosaic.PureOps.Ideal
import Idealize.ShloMosaic.PureOps.Ideal.Laws
import Idealize.ShloMosaic.Lib.StableHlo.Predicate
import Idealize.ShloMosaic.Lib.Pipeline.Value

noncomputable section

namespace Cert.ReferenceIdeal.RefValue

open Cert.ReferenceIdeal Cert.ReferenceIdeal.Facts₀ Idealize.ShloMosaic Idealize.ShloMosaic.StableHlo.Predicate
open Cert.Route

/-! ## The integer stages at one slot -/

/-- The wrap of negative indices at one slot. -/
theorem wrap_apply (n : BitVec 32) (v : IVec S32768 32) (i : S32768.Idx) :
    Term.wrap n v i = Scalar.select (IntOp.cmpi .slt (v i) 0#32) (IntOp.addi (v i) n) (v i) := rfl

/-- It leaves a small non-negative entry alone. -/
theorem wrap_of_small (n : BitVec 32) (v : IVec S32768 32) (i : S32768.Idx) (h : (v i).toNat < 2 ^ 31) :
    Term.wrap n v i = v i :=
  (wrap_apply n v i).trans (Words.wrap_small n (v i) h)

/-- Floor division by two at one slot holding a small non-negative entry. -/
theorem floorDiv2_apply (a : IVec S32768 32) (i : S32768.Idx) (h : (a i).toNat < 2 ^ 31) :
    Term.floorDiv2 a i = BitVec.ofNat 32 ((a i).toNat / 2) :=
  Words.floordiv2_small (a i) h

/-- The argsort holds a permutation of the slot numbers. -/
theorem order_perm (E : IVec S16384x2 32) :
    ∃ σ : Equiv.Perm (Fin 32768), ∀ s : Fin 32768, Term.order E (Shape.Idx.ofFin s) = BitVec.ofNat 32 (σ s).val :=
  SortPerm.argsort_perm comparator_i32_i32_d0 (Term.flatE E)

section Slots

variable (E : IVec S16384x2 32) (σ : Equiv.Perm (Fin 32768))
  (hσ : ∀ s : Fin 32768, Term.order E (Shape.Idx.ofFin s) = BitVec.ofNat 32 (σ s).val)

include hσ

theorem order_toNat (s : Fin 32768) : (Term.order E (Shape.Idx.ofFin s)).toNat = (σ s).val := by
  rw [hσ s, BitVec.toNat_ofNat]
  exact Nat.mod_eq_of_lt (by have := (σ s).isLt; omega)

/-- Slot s came from token σ(s) / 2. -/
theorem tokIdx_eq (s : Fin 32768) : Term.tokIdx E (Shape.Idx.ofFin s) = BitVec.ofNat 32 ((σ s).val / 2) := by
  unfold Term.tokIdx
  rw [floorDiv2_apply _ _ (by rw [order_toNat E σ hσ s]; have := (σ s).isLt; omega), order_toNat E σ hσ s]

/-- The column of row numbers the gather of `x` and the accumulation read, at slot s. -/
theorem tokCol_eq (s : Fin 32768) :
    Term.col (Term.wrap 16384#32 (Term.tokIdx E)) (ixP s) = BitVec.ofNat 32 ((σ s).val / 2) := by
  unfold Term.col
  rw [bcast_col1, wrap_of_small _ _ _ (by
    rw [tokIdx_eq E σ hσ s, BitVec.toNat_ofNat]
    have := (σ s).isLt
    exact lt_of_le_of_lt (Nat.mod_le _ _) (by omega)), tokIdx_eq E σ hσ s]

theorem tokCol_toInt (s : Fin 32768) :
    (Term.col (Term.wrap 16384#32 (Term.tokIdx E)) (ixP s)).toInt = (((σ s).val / 2 : ℕ) : ℤ) := by
  rw [tokCol_eq E σ hσ s]
  exact toInt_ofNat_small _ (by have := (σ s).isLt; omega)

/-- The column of positions the gather of the scores reads, at slot s. -/
theorem ordCol_eq (s : Fin 32768) :
    Term.col (Term.wrap 32768#32 (Term.order E)) (ixP s) = BitVec.ofNat 32 (σ s).val := by
  unfold Term.col
  rw [bcast_col1, wrap_of_small _ _ _ (by rw [order_toNat E σ hσ s]; have := (σ s).isLt; omega), hσ s]

theorem ordCol_toInt (s : Fin 32768) :
    (Term.col (Term.wrap 32768#32 (Term.order E)) (ixP s)).toInt = ((σ s).val : ℤ) := by
  rw [ordCol_eq E σ hσ s]
  exact toInt_ofNat_small _ (by have := (σ s).isLt; omega)

/-! ## The float stages at one slot -/

/-- Slot s gathers row σ(s) / 2 of `x`. -/
theorem rows_apply (X : FVec Ideal S16384x4096 .f32) (s : Fin 32768) (q : Fin 4096) :
    Term.rows (F := Ideal) X E (ij s q) = X (ij (⟨(σ s).val / 2, by have := (σ s).isLt; omega⟩ : Fin 16384) q) := by
  unfold Term.rows
  refine (IndexOps.gather_rows gather_S16384x4096_S32768x1_S32768x4096_1_0_n_n_0_1_14096 rfl rfl rfl rfl rfl rfl X _ s q
    (by norm_num)).trans ?_
  refine congrArg (fun r : Fin 16384 => X (ij r q)) (Fin.ext ?_)
  show min (Term.col (Term.wrap 16384#32 (Term.tokIdx E)) (ixP s)).toInt.toNat (16384 - 1) = (σ s).val / 2
  rw [tokCol_toInt E σ hσ s, Int.toNat_natCast]
  have := (σ s).isLt
  omega

/-- Slot s reads the flattened scores at σ(s). -/
theorem tsSorted_apply (TS : FVec Ideal S16384x2 .f32) (s : Fin 32768) :
    Term.tsSorted (F := Ideal) TS E (Shape.Idx.ofFin s) = Term.flatTS TS (Shape.Idx.ofFin (σ s)) := by
  unfold Term.tsSorted
  refine (gather_take gather_S32768_S32768x1_S32768_n_0_n_n_0_1_1 rfl rfl rfl rfl (Term.flatTS TS) _ s (by norm_num)).trans ?_
  refine congrArg (fun r : Fin 32768 => Term.flatTS TS (Shape.Idx.ofFin r)) (Fin.ext ?_)
  show min (Term.col (Term.wrap 32768#32 (Term.order E)) (ixP s)).toInt.toNat (32768 - 1) = (σ s).val
  rw [ordCol_toInt E σ hσ s, Int.toNat_natCast]
  have := (σ s).isLt
  omega

/-- The routed row of slot s at column q: the gathered entry of `x` times the slot's score. -/
theorem upd_apply (X : FVec Ideal S16384x4096 .f32) (TS : FVec Ideal S16384x2 .f32) (s : Fin 32768) (q : Fin 4096) :
    (Term.upd (F := Ideal) X TS E (ij s q) : EReal)
      = (X (ij (⟨(σ s).val / 2, by have := (σ s).isLt; omega⟩ : Fin 16384) q) : EReal)
          * (Term.flatTS TS (Shape.Idx.ofFin (σ s)) : EReal) := by
  unfold Term.upd Term.col
  show FloatOps.mulf (F := Ideal) (Term.rows (F := Ideal) X E (ij s q)) _ = _
  rw [bcast_rows, rows_apply E σ hσ X s q, tsSorted_apply E σ hσ TS s]
  rfl

/-- Where the accumulation lands slot s's entry of column q'. -/
theorem lands (s : Fin 32768) (q' : Fin 4096) (t : Fin 16384) (q : Fin 4096) :
    scatter_S16384x4096_S32768x1_S32768x4096_1_0_0_1.resultIdx? (ij s q') (Term.col (Term.wrap 16384#32 (Term.tokIdx E)))
        = some (ij t q) ↔ (σ s).val / 2 = t.val ∧ q' = q := by
  rw [IndexOps.scatter_rows_lands scatter_S16384x4096_S32768x1_S32768x4096_1_0_0_1 rfl rfl rfl rfl, tokCol_toInt E σ hσ s]
  constructor
  · rintro ⟨h, hq⟩; exact ⟨by exact_mod_cast h, hq⟩
  · rintro ⟨h, hq⟩; exact ⟨by exact_mod_cast h, hq⟩

end Slots

/-! ## The flattened scores -/

/-- Slot 2t of the flattened scores is token t's first score. -/
theorem flatTS_even (TS : FVec Ideal S16384x2 .f32) (t : Fin 16384) :
    Term.flatTS TS (Shape.Idx.ofFin (⟨2 * t.val, by omega⟩ : Fin 32768)) = TS (ij t (0 : Fin 2)) :=
  shapeCast_apply TS _ _ _ (by
    rw [Shape.rowMajor_val_two, Shape.rowMajor_val_one]
    show t.val * 2 + 0 = 2 * t.val
    omega)

/-- Slot 2t + 1 is token t's second score. -/
theorem flatTS_odd (TS : FVec Ideal S16384x2 .f32) (t : Fin 16384) :
    Term.flatTS TS (Shape.Idx.ofFin (⟨2 * t.val + 1, by omega⟩ : Fin 32768)) = TS (ij t (1 : Fin 2)) :=
  shapeCast_apply TS _ _ _ (by
    rw [Shape.rowMajor_val_two, Shape.rowMajor_val_one]
    show t.val * 2 + 1 = 2 * t.val + 1
    omega)

/-! ## The accumulation -/

/-- The combined output at (t, q): zero, plus x[t, q] scaled by token t's two scores, one product each. -/
theorem out_apply (X : FVec Ideal S16384x4096 .f32) (TS : FVec Ideal S16384x2 .f32) (E : IVec S16384x2 32)
    (t : Fin 16384) (q : Fin 4096) :
    (Term.out (F := Ideal) X TS E (ij t q) : EReal)
      = 0 + ((X (ij t q) : EReal) * (TS (ij t (0 : Fin 2)) : EReal) + (X (ij t q) : EReal) * (TS (ij t (1 : Fin 2)) : EReal)) := by
  obtain ⟨σ, hσ⟩ := order_perm E
  -- the value a slot holding flat position k contributes at column q
  let f : Fin 32768 → EReal := fun k =>
    (X (ij (⟨k.val / 2, by have := k.isLt; omega⟩ : Fin 16384) q) : EReal) * (Term.flatTS TS (Shape.Idx.ofFin k) : EReal)
  unfold Term.out Host.scatterAdd
  rw [Ideal.hostScatterAdd_def]
  unfold Ideal.hostScatterAdd
  have hzero : (broadcastInDim S16384x4096 ![] bcast_S_S16384x4096 (constant (F := Ideal) S_ .f32 0x00000000#32) (ij t q) : EReal) = 0 :=
    Ideal.ofBits_zero_f32
  have hsum : ∑ j ∈ Finset.univ.filter (fun j : S32768x4096.Idx =>
        scatter_S16384x4096_S32768x1_S32768x4096_1_0_0_1.resultIdx? j (Term.col (Term.wrap 16384#32 (Term.tokIdx E))) = some (ij t q)),
        (Term.upd (F := Ideal) X TS E j : EReal)
      = ∑ s ∈ Finset.univ.filter (fun s : Fin 32768 => (σ s).val / 2 = t.val), f (σ s) := by
    symm
    refine Finset.sum_bij (fun s _ => (ij s q : S32768x4096.Idx)) ?_ ?_ ?_ ?_
    · intro s hs
      rw [Finset.mem_filter] at hs ⊢
      exact ⟨Finset.mem_univ _, (lands E σ hσ s q t q).mpr ⟨hs.2, rfl⟩⟩
    · intro s _ s' _ h
      exact congrFun h (0 : Fin 2)
    · intro j hj
      rw [Finset.mem_filter] at hj
      have h := hj.2
      rw [← ij_eta j] at h
      obtain ⟨h1, h2⟩ := (lands E σ hσ (j 0) (j 1) t q).mp h
      refine ⟨j 0, Finset.mem_filter.mpr ⟨Finset.mem_univ _, h1⟩, ?_⟩
      show ij (j 0) q = j
      rw [← h2]; exact ij_eta j
    · intro s _
      exact (upd_apply E σ hσ X TS s q).symm
  rw [hzero, hsum, PairSum.sum_pair σ t f]
  show 0 + ((X (ij (⟨2 * t.val / 2, _⟩ : Fin 16384) q) : EReal) * _ + (X (ij (⟨(2 * t.val + 1) / 2, _⟩ : Fin 16384) q) : EReal) * _) = _
  rw [flatTS_even TS t, flatTS_odd TS t]
  have e0 : (⟨2 * t.val / 2, by omega⟩ : Fin 16384) = t := Fin.ext (by show 2 * t.val / 2 = t.val; omega)
  have e1 : (⟨(2 * t.val + 1) / 2, by omega⟩ : Fin 16384) = t := Fin.ext (by show (2 * t.val + 1) / 2 = t.val; omega)
  rw [e0, e1]

end Cert.ReferenceIdeal.RefValue

end
-- ==== Proof.Finite.lean ====
/-
  What the precondition says: every entry of `x` and of the scores is a real number (neither
  infinity), which is what lets a product distribute over the sum of the two scores.
-/
import proofs.«130824_j22874995818747_1_alg».proof.Proof.Gen.Pre_finite_inputs
import Idealize.ShloMosaic.PureOps.Ideal
import Idealize.ShloMosaic.Lib.ReduceAll

noncomputable section

namespace Cert.Pre_finite_inputs.Finite

open Cert.Pre_finite_inputs Idealize.ShloMosaic

/-- The result shape has rank zero, so it has exactly one index. -/
private instance subsingleton_idx : Subsingleton S_.Idx := ⟨fun a b => funext fun d => d.elim0⟩

/-- An extended real whose absolute value is below the float pattern of plus infinity is a real number. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If the printed precondition is all ones over the extended reals, every entry of the two float arrays is real. -/
theorem real_of_pre (X : FVec Ideal S16384x4096 .f32) (TS : FVec Ideal S16384x2 .f32) (E : IVec S16384x2 32) (C : IVec S64 32)
    (h : Cert.Pre_finite_inputs.fn (F := Ideal) X TS E C = fun _ => 1#1) :
    (∀ i, ∃ r : ℝ, (X i : EReal) = (r : EReal)) ∧ (∀ i, ∃ r : ℝ, (TS i : EReal) = (r : EReal)) := by
  have h0 := congrFun h (fun d => d.elim0)
  dsimp only [Cert.Pre_finite_inputs.fn] at h0
  obtain ⟨h1, h2⟩ := IntOp.andi_eq_one.1 h0
  refine ⟨fun i => ?_, fun i => ?_⟩
  · have e := Host.reduce_andi_all _ _ _ _ _ h1 i
    exact real_of_abs_lt (X i) e
  · have e := Host.reduce_andi_all _ _ _ _ _ h2 i
    exact real_of_abs_lt (TS i) e

end Cert.Pre_finite_inputs.Finite

end
-- ==== Proof.lean ====
/- The certificate's proof. The kernel scales each row of `x` by the sum of the row's two scores; the reference
   sorts the (token, choice) slots by expert, gathers each slot's row of `x` and its score, multiplies, and accumulates
   the products back onto the tokens' rows. Sorting only permutes the slots, so each token's row receives exactly its
   own two products, x·s₀ + x·s₁, and on finite reals that is x·(s₀ + s₁): the two outputs agree element by element.
   The histogram of expert ids is the same host accumulation in both programs. The kernel's frames are the generated
   ones; the reference is a straight line of host operations. -/
import proofs.«130824_j22874995818747_1_alg».proof.Defs
import proofs.«130824_j22874995818747_1_alg».proof.Proof.Gen.Kernel
import proofs.«130824_j22874995818747_1_alg».proof.Proof.Gen.Kernel.Skeleton
import proofs.«130824_j22874995818747_1_alg».proof.Proof.Gen.Kernel.Launch
import proofs.«130824_j22874995818747_1_alg».proof.Proof.Gen.Kernel.Points
import proofs.«130824_j22874995818747_1_alg».proof.Proof.Gen.Kernel.Frame
import proofs.«130824_j22874995818747_1_alg».proof.Proof.Gen.KernelIdeal
import proofs.«130824_j22874995818747_1_alg».proof.Proof.Gen.KernelIdeal.Skeleton
import proofs.«130824_j22874995818747_1_alg».proof.Proof.Gen.KernelIdeal.Launch
import proofs.«130824_j22874995818747_1_alg».proof.Proof.Gen.KernelIdeal.Points
import proofs.«130824_j22874995818747_1_alg».proof.Proof.Gen.KernelIdeal.Frame
import proofs.«130824_j22874995818747_1_alg».proof.Proof.Gen.KernelIdeal.Value
import proofs.«130824_j22874995818747_1_alg».proof.Proof.Gen.ReferenceIdeal
import proofs.«130824_j22874995818747_1_alg».proof.Proof.Gen.Pre_finite_inputs
import proofs.«130824_j22874995818747_1_alg».proof.Proof.KernelValue
import proofs.«130824_j22874995818747_1_alg».proof.Proof.RefRun
import proofs.«130824_j22874995818747_1_alg».proof.Proof.RefValue
import proofs.«130824_j22874995818747_1_alg».proof.Proof.Finite
import Idealize.ShloMosaic.Adequacy
import Idealize.ShloMosaic.Init

noncomputable section

namespace Cert.Proof

open Idealize.ShloMosaic Idealize.SL.Sem Idealize.ShloMosaic.StableHlo.Predicate

/-- The two outputs are one array: at (t, q) the kernel has x·(0 + (s₀ + s₁)) and the reference 0 + (x·s₀ + x·s₁),
    equal because every entry is a real number. -/
theorem out_eq (X : FVec Ideal Cert.KernelIdeal.S16384x4096 .f32) (TS : FVec Ideal Cert.KernelIdeal.S16384x2 .f32)
    (E : IVec Cert.KernelIdeal.S16384x2 32)
    (hX : ∀ i, ∃ r : ℝ, (X i : EReal) = (r : EReal)) (hT : ∀ i, ∃ r : ℝ, (TS i : EReal) = (r : EReal)) :
    Cert.ReferenceIdeal.Term.out (F := Ideal) X TS E = Cert.KernelIdeal.HandValue.out (F := Ideal) X TS := by
  funext i
  rw [← ij_eta i]
  obtain ⟨x, hx⟩ := hX (ij (i 0) (i 1))
  obtain ⟨a, ha⟩ := hT (ij (i 0) (0 : Fin 2))
  obtain ⟨b, hb⟩ := hT (ij (i 0) (1 : Fin 2))
  exact (Cert.ReferenceIdeal.RefValue.out_apply X TS E (i 0) (i 1)).trans
    ((by rw [hx, ha, hb]; exact (Cert.Route.PairSum.scale_sum x a b).symm : _ = _).trans
      (Cert.KernelIdeal.HandValue.out_apply X TS (i 0) (i 1)).symm)

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.HandRun.run (F := Ideal) m ρ)

theorem preserves : Cert.preserves_Kernel_KernelIdeal := trivial

/-- Both programs run; the kernel ends at its closed-form output and histogram, the reference at its stage functions'
    values of arguments that agree, and those are the same arrays. -/
theorem algebraic : Cert.algebraic_KernelIdeal_ReferenceIdeal := by
  intro m ρ m' ρ' hpre hagree
  refine ⟨_, _, Cert.KernelIdeal.HandValue.run (F := Ideal) m ρ, ?_⟩
  refine (θ_run Cert.ReferenceIdeal.defs _ _).mono (fun _ h c => ⟨(h c).1.trans ?_, (h c).2.1.trans ?_, (h c).2.2⟩)
    (Cert.ReferenceIdeal.HandRun.run (F := Ideal) m' ρ')
  · rw [(hagree c).1, (hagree c).2.1, (hagree c).2.2.1]
    obtain ⟨hX, hT⟩ := Cert.Pre_finite_inputs.Finite.real_of_pre _ _ _ _ (hpre c)
    exact out_eq _ _ _ hX hT
  · rw [(hagree c).2.2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
